-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1x8192x8 : Shape := ⟨3, ![1, 8192, 8]⟩
abbrev S1x256x8 : Shape := ⟨3, ![1, 256, 8]⟩
abbrev S1x11008 : Shape := ⟨2, ![1, 11008]⟩
abbrev S1x1376x4096 : Shape := ⟨3, ![1, 1376, 4096]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1x8192x8 : S_.BroadcastsInDim S1x8192x8 (![] : Fin 0 → Fin S1x8192x8.rank)
  reducesTo_S1x8192x8_S_d0_1_2 : S1x8192x8.ReducesTo [0, 1, 2] S_
  bcast_S_S1x256x8 : S_.BroadcastsInDim S1x256x8 (![] : Fin 0 → Fin S1x256x8.rank)
  reducesTo_S1x256x8_S_d0_1_2 : S1x256x8.ReducesTo [0, 1, 2] S_
  bcast_S_S1x11008 : S_.BroadcastsInDim S1x11008 (![] : Fin 0 → Fin S1x11008.rank)
  reducesTo_S1x11008_S_d0_1 : S1x11008.ReducesTo [0, 1] S_

variable [Facts]

def fn_part1 {F : FTy → Type} [FloatOps F] (main_arg4 : FVec F S1x11008 .f32) (main_v13 : IVec S_ 1) (main_v16 : IVec S1x11008 1) : IVec S_ 1 :=
  let main_c_5 : IVec S_ 1 := constantI S_ 1 1#1
  let main_v17 : IVec S_ 1 := (fun x v => Host.reduce IntOp.andi x v reducesTo_S1x11008_S_d0_1 h_S_) main_v16 main_c_5
  let main_v18 : IVec S_ 1 := andi main_v13 main_v17
  let main_v19 : FVec F S1x11008 .f32 := Host.absf main_arg4
  let main_cst_6 : FVec F S_ .f32 := constant S_ .f32 0x7F800000#32
  let main_v20 : FVec F S1x11008 .f32 := broadcastInDim S1x11008 ![] bcast_S_S1x11008 main_cst_6
  let main_v21 : IVec S1x11008 1 := cmpf .olt main_v19 main_v20
  let main_c_7 : IVec S_ 1 := constantI S_ 1 1#1
  let main_v22 : IVec S_ 1 := (fun x v => Host.reduce IntOp.andi x v reducesTo_S1x11008_S_d0_1 h_S_) main_v21 main_c_7
  let main_v23 : IVec S_ 1 := andi main_v18 main_v22
  main_v23

def fn {F : FTy → Type} [FloatOps F] (main_arg0 : FVec F S8192x4096 .f32) (main_arg1 : FVec F S1x8192x8 .f32) (main_arg2 : FVec F S1x256x8 .f32) (main_arg3 : FVec F S1x11008 .f32) (main_arg4 : FVec F S1x11008 .f32) (main_arg5 : IVec S1x1376x4096 32) (main_arg6 : IVec S1x1376x4096 32) (main_arg7 : IVec S11008 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1x8192x8 .f32 := Host.absf main_arg1
  let main_cst_0 : FVec F S_ .f32 := constant S_ .f32 0x7F800000#32
  let main_v5 : FVec F S1x8192x8 .f32 := broadcastInDim S1x8192x8 ![] bcast_S_S1x8192x8 main_cst_0
  let main_v6 : IVec S1x8192x8 1 := cmpf .olt main_v4 main_v5
  let main_c_1 : IVec S_ 1 := constantI S_ 1 1#1
  let main_v7 : IVec S_ 1 := (fun x v => Host.reduce IntOp.andi x v reducesTo_S1x8192x8_S_d0_1_2 h_S_) main_v6 main_c_1
  let main_v8 : IVec S_ 1 := andi main_v3 main_v7
  let main_v9 : FVec F S1x256x8 .f32 := Host.absf main_arg2
  let main_cst_2 : FVec F S_ .f32 := constant S_ .f32 0x7F800000#32
  let main_v10 : FVec F S1x256x8 .f32 := broadcastInDim S1x256x8 ![] bcast_S_S1x256x8 main_cst_2
  let main_v11 : IVec S1x256x8 1 := cmpf .olt main_v9 main_v10
  let main_c_3 : IVec S_ 1 := constantI S_ 1 1#1
  let main_v12 : IVec S_ 1 := (fun x v => Host.reduce IntOp.andi x v reducesTo_S1x256x8_S_d0_1_2 h_S_) main_v11 main_c_3
  let main_v13 : IVec S_ 1 := andi main_v8 main_v12
  let main_v14 : FVec F S1x11008 .f32 := Host.absf main_arg3
  let main_cst_4 : FVec F S_ .f32 := constant S_ .f32 0x7F800000#32
  let main_v15 : FVec F S1x11008 .f32 := broadcastInDim S1x11008 ![] bcast_S_S1x11008 main_cst_4
  let main_v16 : IVec S1x11008 1 := cmpf .olt main_v14 main_v15
  fn_part1 (F := F) main_arg4 main_v13 main_v16
-- ==== Kernel.lean ====
abbrev S8192x4096 : Shape := ⟨2, ![8192, 4096]⟩
abbrev S1x8192x8 : Shape := ⟨3, ![1, 8192, 8]⟩
abbrev S1x256x8 : Shape := ⟨3, ![1, 256, 8]⟩
abbrev S1x11008 : Shape := ⟨2, ![1, 11008]⟩
abbrev S1x1376x4096 : Shape := ⟨3, ![1, 1376, 4096]⟩
abbrev S11008 : Shape := ⟨1, ![11008]⟩
abbrev S_ : Shape := ⟨0, ![]⟩
abbrev S1x1376x4096x1 : Shape := ⟨4, ![1, 1376, 4096, 1]⟩
abbrev S1x1376x4096x8 : Shape := ⟨4, ![1, 1376, 4096, 8]⟩
abbrev S1376x8x1x4096 : Shape := ⟨4, ![1376, 8, 1, 4096]⟩
abbrev S11008x4096 : Shape := ⟨2, ![11008, 4096]⟩
abbrev S11008x1 : Shape := ⟨2, ![11008, 1]⟩
abbrev S11264x4096 : Shape := ⟨2, ![11264, 4096]⟩
abbrev S8192x11264 : Shape := ⟨2, ![8192, 11264]⟩
abbrev S1024x4096 : Shape := ⟨2, ![1024, 4096]⟩
abbrev S512x4096 : Shape := ⟨2, ![512, 4096]⟩
abbrev S1024x512 : Shape := ⟨2, ![1024, 512]⟩
abbrev S8192x11008 : Shape := ⟨2, ![8192, 11008]⟩

abbrev nBuf : Space → Nat
  | .hbm => 54
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x8192x8, .f32⟩
  | .hbm, ⟨2, _⟩ => ⟨S1x256x8, .f32⟩
  | .hbm, ⟨3, _⟩ => ⟨S1x11008, .f32⟩
  | .hbm, ⟨4, _⟩ => ⟨S1x11008, .f32⟩
  | .hbm, ⟨5, _⟩ => ⟨S1x1376x4096, .i32⟩
  | .hbm, ⟨6, _⟩ => ⟨S1x1376x4096, .i32⟩
  | .hbm, ⟨7, _⟩ => ⟨S11008, .i32⟩
  | .hbm, ⟨8, _⟩ => ⟨S_, .i32⟩
  | .hbm, ⟨9, _⟩ => ⟨S1x1376x4096, .i32⟩
  | .hbm, ⟨10, _⟩ => ⟨S1x1376x4096, .i1⟩
  | .hbm, ⟨11, _⟩ => ⟨S_, .i32⟩
  | .hbm, ⟨12, _⟩ => ⟨S1x1376x4096, .i32⟩
  | .hbm, ⟨13, _⟩ => ⟨S1x1376x4096, .i32⟩
  | .hbm, ⟨14, _⟩ => ⟨S1x1376x4096, .i32⟩
  | .hbm, ⟨15, _⟩ => ⟨S1x1376x4096x1, .i32⟩
  | .hbm, ⟨16, _⟩ => ⟨S1x1376x4096x8, .f32⟩
  | .hbm, ⟨17, _⟩ => ⟨S_, .i32⟩
  | .hbm, ⟨18, _⟩ => ⟨S1x1376x4096, .i32⟩
  | .hbm, ⟨19, _⟩ => ⟨S1x1376x4096, .i1⟩
  | .hbm, ⟨20, _⟩ => ⟨S_, .i32⟩
  | .hbm, ⟨21, _⟩ => ⟨S1x1376x4096, .i32⟩
  | .hbm, ⟨22, _⟩ => ⟨S1x1376x4096, .i32⟩
  | .hbm, ⟨23, _⟩ => ⟨S1x1376x4096, .i32⟩
  | .hbm, ⟨24, _⟩ => ⟨S1x1376x4096x1, .i32⟩
  | .hbm, ⟨25, _⟩ => ⟨S1x1376x4096x8, .f32⟩
  | .hbm, ⟨26, _⟩ => ⟨S1x1376x4096x8, .f32⟩
  | .hbm, ⟨27, _⟩ => ⟨S1376x8x1x4096, .f32⟩
  | .hbm, ⟨28, _⟩ => ⟨S11008x4096, .f32⟩
  | .hbm, ⟨29, _⟩ => ⟨S11008x1, .f32⟩
  | .hbm, ⟨30, _⟩ => ⟨S11008x4096, .f32⟩
  | .hbm, ⟨31, _⟩ => ⟨S11008x4096, .f32⟩
  | .hbm, ⟨32, _⟩ => ⟨S11008x1, .f32⟩
  | .hbm, ⟨33, _⟩ => ⟨S11008x4096, .f32⟩
  | .hbm, ⟨34, _⟩ => ⟨S11008x4096, .f32⟩
  | .hbm, ⟨35, _⟩ => ⟨S11008, .i32⟩
  | .hbm, ⟨36, _⟩ => ⟨S11008, .i32⟩
  | .hbm, ⟨37, _⟩ => ⟨S11008, .i32⟩
  | .hbm, ⟨38, _⟩ => ⟨S_, .i32⟩
  | .hbm, ⟨39, _⟩ => ⟨S11008, .i32⟩
  | .hbm, ⟨40, _⟩ => ⟨S11008, .i1⟩
  | .hbm, ⟨41, _⟩ => ⟨S_, .i32⟩
  | .hbm, ⟨42, _⟩ => ⟨S11008, .i32⟩
  | .hbm, ⟨43, _⟩ => ⟨S11008, .i32⟩
  | .hbm, ⟨44, _⟩ => ⟨S11008, .i32⟩
  | .hbm, ⟨45, _⟩ => ⟨S11008x1, .i32⟩
  | .hbm, ⟨46, _⟩ => ⟨S11008x4096, .f32⟩
  | .hbm, ⟨47, _⟩ => ⟨S_, .i32⟩
  | .hbm, ⟨48, _⟩ => ⟨S_, .f32⟩
  | .hbm, ⟨49, _⟩ => ⟨S11264x4096, .f32⟩
  | .hbm, ⟨50, _⟩ => ⟨S8192x4096, .bf16⟩
  | .hbm, ⟨51, _⟩ => ⟨S11264x4096, .bf16⟩
  | .hbm, ⟨52, _⟩ => ⟨S8192x11264, .f32⟩
  | .hbm, ⟨53, _⟩ => ⟨S8192x11008, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1_0 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_call1_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S1x1376x4096 : S_.BroadcastsInDim S1x1376x4096 (![] : Fin 0 → Fin S1x1376x4096.rank)
  bcast_S1x1376x4096_S1x1376x4096x1_0_1_2 : S1x1376x4096.BroadcastsInDim S1x1376x4096x1 (![0, 1, 2] : Fin 3 → Fin S1x1376x4096x1.rank)
  transposes_S1x1376x4096x8_S1376x8x1x4096_1_3_0_2 : S1x1376x4096x8.Transposes [1, 3, 0, 2] S1376x8x1x4096
  shapeCasts_S1376x8x1x4096_S11008x4096 : S1376x8x1x4096.ShapeCasts S11008x4096
  shapeCasts_S1x11008_S11008x1 : S1x11008.ShapeCasts S11008x1
  bcast_S11008x1_S11008x4096_0_1 : S11008x1.BroadcastsInDim S11008x4096 (![0, 1] : Fin 2 → Fin S11008x4096.rank)
  bcast_S_S11008 : S_.BroadcastsInDim S11008 (![] : Fin 0 → Fin S11008.rank)
  bcast_S11008_S11008x1_0 : S11008.BroadcastsInDim S11008x1 (![0] : Fin 1 → Fin S11008x1.rank)
  pads_S11008x4096_S11264x4096_02560_000 : S11008x4096.Pads (![0, 0] : Fin 2 → Nat) ![256, 0] ![0, 0] S11264x4096
  h_S_ : 0 < S_.numel
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x512_S1024x512_0_0 : ∀ a, (![0, 0] : Fin 2 → Nat) a + S1024x512.size a ≤ S1024x512.size a
  h_S1024x512 : 0 < S1024x512.numel
  slices_S8192x11264_S8192x11008_0_0 : S8192x11264.Slices ![0, 0] S8192x11008
  gather_S1x8192x8_S1x1376x4096x1_S1x1376x4096x8_3_1_0_0_1_3_118_wf : GatherDims.WF S1x8192x8 S1x1376x4096x1 S1x1376x4096x8 [3] [1] [0] [1] [0] 3 ![1, 1, 8]
  gather_S1x256x8_S1x1376x4096x1_S1x1376x4096x8_3_1_0_0_1_3_118_wf : GatherDims.WF S1x256x8 S1x1376x4096x1 S1x1376x4096x8 [3] [1] [0] [1] [0] 3 ![1, 1, 8]
  gather_S11008x4096_S11008x1_S11008x4096_1_0_n_n_0_1_14096_wf : GatherDims.WF S11008x4096 S11008x1 S11008x4096 [1] [0] [] [0] [] 1 ![1, 4096]
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S11264x4096.size a
  hwx0_1 : ∀ i : grid0.Coords, EltTy.bits .bf16 = 32 ∨ (Rect.block (s := S11264x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x11264.size a
  hwx0_2 : ∀ i : grid0.Coords, EltTy.bits .f32 = 32 ∨ (Rect.block (s := S8192x11264) S1024x512.size (cc0_transform_2 i) (hinb0_2 i)).WholeWords (EltTy.packing .f32)

variable [Facts₀]

def gather_S1x8192x8_S1x1376x4096x1_S1x1376x4096x8_3_1_0_0_1_3_118 : GatherDims S1x8192x8 S1x1376x4096x1 S1x1376x4096x8 where
  offsetDims := [3]
  collapsedSliceDims := [1]
  operandBatchingDims := [0]
  startIndicesBatchingDims := [0]
  startIndexMap := [1]
  indexVectorDim := 3
  sliceSizes := ![1, 1, 8]
  wf := gather_S1x8192x8_S1x1376x4096x1_S1x1376x4096x8_3_1_0_0_1_3_118_wf
def gather_S1x256x8_S1x1376x4096x1_S1x1376x4096x8_3_1_0_0_1_3_118 : GatherDims S1x256x8 S1x1376x4096x1 S1x1376x4096x8 where
  offsetDims := [3]
  collapsedSliceDims := [1]
  operandBatchingDims := [0]
  startIndicesBatchingDims := [0]
  startIndexMap := [1]
  indexVectorDim := 3
  sliceSizes := ![1, 1, 8]
  wf := gather_S1x256x8_S1x1376x4096x1_S1x1376x4096x8_3_1_0_0_1_3_118_wf
def comparator_i32_i32_d0 : BitVec 32 × BitVec 32 → BitVec 32 × BitVec 32 → BitVec 1 :=
  fun l r =>
    let v2 := IntOp.cmpi .slt l.1 r.1
    v2
def gather_S11008x4096_S11008x1_S11008x4096_1_0_n_n_0_1_14096 : GatherDims S11008x4096 S11008x1 S11008x4096 where
  offsetDims := [1]
  collapsedSliceDims := [0]
  operandBatchingDims := []
  startIndicesBatchingDims := []
  startIndexMap := [0]
  indexVectorDim := 1
  sliceSizes := ![1, 4096]
  wf := gather_S11008x4096_S11008x1_S11008x4096_1_0_n_n_0_1_14096_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v32) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1x8192x8 : Shape := ⟨3, ![1, 8192, 8]⟩
abbrev S1x256x8 : Shape := ⟨3, ![1, 256, 8]⟩
abbrev S1x11008 : Shape := ⟨2, ![1, 11008]⟩
abbrev S1x1376x4096 : Shape := ⟨3, ![1, 1376, 4096]⟩
abbrev S11008 : Shape := ⟨1, ![11008]⟩
abbrev S_ : Shape := ⟨0, ![]⟩
abbrev S1x1376x4096x1 : Shape := ⟨4, ![1, 1376, 4096, 1]⟩
abbrev S1x1376x4096x8 : Shape := ⟨4, ![1, 1376, 4096, 8]⟩
abbrev S1376x8x1x4096 : Shape := ⟨4, ![1376, 8, 1, 4096]⟩
abbrev S11008x4096 : Shape := ⟨2, ![11008, 4096]⟩
abbrev S11008x1 : Shape := ⟨2, ![11008, 1]⟩
abbrev S4096x11008 : Shape := ⟨2, ![4096, 11008]⟩
abbrev S8192x11008 : Shape := ⟨2, ![8192, 11008]⟩

abbrev nBuf : Space → Nat
  | .hbm => 49
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x8192x8, .f32⟩
  | .hbm, ⟨2, _⟩ => ⟨S1x256x8, .f32⟩
  | .hbm, ⟨3, _⟩ => ⟨S1x11008, .f32⟩
  | .hbm, ⟨4, _⟩ => ⟨S1x11008, .f32⟩
  | .hbm, ⟨5, _⟩ => ⟨S1x1376x4096, .i32⟩
  | .hbm, ⟨6, _⟩ => ⟨S1x1376x4096, .i32⟩
  | .hbm, ⟨7, _⟩ => ⟨S11008, .i32⟩
  | .hbm, ⟨8, _⟩ => ⟨S_, .i32⟩
  | .hbm, ⟨9, _⟩ => ⟨S1x1376x4096, .i32⟩
  | .hbm, ⟨10, _⟩ => ⟨S1x1376x4096, .i1⟩
  | .hbm, ⟨11, _⟩ => ⟨S_, .i32⟩
  | .hbm, ⟨12, _⟩ => ⟨S1x1376x4096, .i32⟩
  | .hbm, ⟨13, _⟩ => ⟨S1x1376x4096, .i32⟩
  | .hbm, ⟨14, _⟩ => ⟨S1x1376x4096, .i32⟩
  | .hbm, ⟨15, _⟩ => ⟨S1x1376x4096x1, .i32⟩
  | .hbm, ⟨16, _⟩ => ⟨S1x1376x4096x8, .f32⟩
  | .hbm, ⟨17, _⟩ => ⟨S_, .i32⟩
  | .hbm, ⟨18, _⟩ => ⟨S1x1376x4096, .i32⟩
  | .hbm, ⟨19, _⟩ => ⟨S1x1376x4096, .i1⟩
  | .hbm, ⟨20, _⟩ => ⟨S_, .i32⟩
  | .hbm, ⟨21, _⟩ => ⟨S1x1376x4096, .i32⟩
  | .hbm, ⟨22, _⟩ => ⟨S1x1376x4096, .i32⟩
  | .hbm, ⟨23, _⟩ => ⟨S1x1376x4096, .i32⟩
  | .hbm, ⟨24, _⟩ => ⟨S1x1376x4096x1, .i32⟩
  | .hbm, ⟨25, _⟩ => ⟨S1x1376x4096x8, .f32⟩
  | .hbm, ⟨26, _⟩ => ⟨S1x1376x4096x8, .f32⟩
  | .hbm, ⟨27, _⟩ => ⟨S1376x8x1x4096, .f32⟩
  | .hbm, ⟨28, _⟩ => ⟨S11008x4096, .f32⟩
  | .hbm, ⟨29, _⟩ => ⟨S11008x1, .f32⟩
  | .hbm, ⟨30, _⟩ => ⟨S11008x4096, .f32⟩
  | .hbm, ⟨31, _⟩ => ⟨S11008x4096, .f32⟩
  | .hbm, ⟨32, _⟩ => ⟨S11008x1, .f32⟩
  | .hbm, ⟨33, _⟩ => ⟨S11008x4096, .f32⟩
  | .hbm, ⟨34, _⟩ => ⟨S11008x4096, .f32⟩
  | .hbm, ⟨35, _⟩ => ⟨S11008, .i32⟩
  | .hbm, ⟨36, _⟩ => ⟨S11008, .i32⟩
  | .hbm, ⟨37, _⟩ => ⟨S11008, .i32⟩
  | .hbm, ⟨38, _⟩ => ⟨S_, .i32⟩
  | .hbm, ⟨39, _⟩ => ⟨S11008, .i32⟩
  | .hbm, ⟨40, _⟩ => ⟨S11008, .i1⟩
  | .hbm, ⟨41, _⟩ => ⟨S_, .i32⟩
  | .hbm, ⟨42, _⟩ => ⟨S11008, .i32⟩
  | .hbm, ⟨43, _⟩ => ⟨S11008, .i32⟩
  | .hbm, ⟨44, _⟩ => ⟨S11008, .i32⟩
  | .hbm, ⟨45, _⟩ => ⟨S11008x1, .i32⟩
  | .hbm, ⟨46, _⟩ => ⟨S11008x4096, .f32⟩
  | .hbm, ⟨47, _⟩ => ⟨S4096x11008, .f32⟩
  | .hbm, ⟨48, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1_0 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S_S1x1376x4096 : S_.BroadcastsInDim S1x1376x4096 (![] : Fin 0 → Fin S1x1376x4096.rank)
  bcast_S1x1376x4096_S1x1376x4096x1_0_1_2 : S1x1376x4096.BroadcastsInDim S1x1376x4096x1 (![0, 1, 2] : Fin 3 → Fin S1x1376x4096x1.rank)
  transposes_S1x1376x4096x8_S1376x8x1x4096_1_3_0_2 : S1x1376x4096x8.Transposes [1, 3, 0, 2] S1376x8x1x4096
  shapeCasts_S1376x8x1x4096_S11008x4096 : S1376x8x1x4096.ShapeCasts S11008x4096
  shapeCasts_S1x11008_S11008x1 : S1x11008.ShapeCasts S11008x1
  bcast_S11008x1_S11008x4096_0_1 : S11008x1.BroadcastsInDim S11008x4096 (![0, 1] : Fin 2 → Fin S11008x4096.rank)
  bcast_S_S11008 : S_.BroadcastsInDim S11008 (![] : Fin 0 → Fin S11008.rank)
  bcast_S11008_S11008x1_0 : S11008.BroadcastsInDim S11008x1 (![0] : Fin 1 → Fin S11008x1.rank)
  transposes_S11008x4096_S4096x11008_1_0 : S11008x4096.Transposes [1, 0] S4096x11008
  gather_S1x8192x8_S1x1376x4096x1_S1x1376x4096x8_3_1_0_0_1_3_118_wf : GatherDims.WF S1x8192x8 S1x1376x4096x1 S1x1376x4096x8 [3] [1] [0] [1] [0] 3 ![1, 1, 8]
  gather_S1x256x8_S1x1376x4096x1_S1x1376x4096x8_3_1_0_0_1_3_118_wf : GatherDims.WF S1x256x8 S1x1376x4096x1 S1x1376x4096x8 [3] [1] [0] [1] [0] 3 ![1, 1, 8]
  gather_S11008x4096_S11008x1_S11008x4096_1_0_n_n_0_1_14096_wf : GatherDims.WF S11008x4096 S11008x1 S11008x4096 [1] [0] [] [0] [] 1 ![1, 4096]
  dot_S8192x4096_S4096x11008_S8192x11008_1_0_0_1_n_n_wf : DotDims.WF S8192x4096 S4096x11008 S8192x11008 [1] [0] [0] [1] [] []

variable [Facts₀]

def gather_S1x8192x8_S1x1376x4096x1_S1x1376x4096x8_3_1_0_0_1_3_118 : GatherDims S1x8192x8 S1x1376x4096x1 S1x1376x4096x8 where
  offsetDims := [3]
  collapsedSliceDims := [1]
  operandBatchingDims := [0]
  startIndicesBatchingDims := [0]
  startIndexMap := [1]
  indexVectorDim := 3
  sliceSizes := ![1, 1, 8]
  wf := gather_S1x8192x8_S1x1376x4096x1_S1x1376x4096x8_3_1_0_0_1_3_118_wf
def gather_S1x256x8_S1x1376x4096x1_S1x1376x4096x8_3_1_0_0_1_3_118 : GatherDims S1x256x8 S1x1376x4096x1 S1x1376x4096x8 where
  offsetDims := [3]
  collapsedSliceDims := [1]
  operandBatchingDims := [0]
  startIndicesBatchingDims := [0]
  startIndexMap := [1]
  indexVectorDim := 3
  sliceSizes := ![1, 1, 8]
  wf := gather_S1x256x8_S1x1376x4096x1_S1x1376x4096x8_3_1_0_0_1_3_118_wf
def comparator_i32_i32_d0 : BitVec 32 × BitVec 32 → BitVec 32 × BitVec 32 → BitVec 1 :=
  fun l r =>
    let v2 := IntOp.cmpi .slt l.1 r.1
    v2
def gather_S11008x4096_S11008x1_S11008x4096_1_0_n_n_0_1_14096 : GatherDims S11008x4096 S11008x1 S11008x4096 where
  offsetDims := [1]
  collapsedSliceDims := [0]
  operandBatchingDims := []
  startIndicesBatchingDims := []
  startIndexMap := [0]
  indexVectorDim := 1
  sliceSizes := ![1, 4096]
  wf := gather_S11008x4096_S11008x1_S11008x4096_1_0_n_n_0_1_14096_wf
def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.TileProduct.lean ====
/-
  One grid point's arithmetic, read at an index.

  The kernel body loads an activation tile `x0` of 1024 rows and a weight tile `x1` of 512 rows, both
  with the full contraction length 4096, and stores the matrix product that contracts the LAST axis of
  both into a zero accumulator. Over the extended reals a product into a zero accumulator is a plain
  finite sum, so the stored tile at row `r`, column `s` is the sum over `k` of `x0[r, k] * x1[s, k]`: row `r` of the
  activations against row `s` of the weights.
-/
import proofs.«134972_j4690104287252_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.TileProduct

open Cert.KernelIdeal Cert.KernelIdeal.Gen Idealize.ShloMosaic Idealize.ShloMosaic.ValueIdx

/-- Which entry of the activation tile the term `k` of output entry `j` reads: row `j 0`, column `k`. -/
abbrev actAt (j : S1024x512.Idx) (k : Fin 4096) : S1024x4096.Idx := fun a => match a with
  | ⟨0, _⟩ => ⟨(j 0).val, (j 0).isLt⟩
  | ⟨1, _⟩ => ⟨k.val, k.isLt⟩
/-- Which entry of the weight tile it reads: row `j 1` (the output's column), column `k`. -/
abbrev wgtAt (j : S1024x512.Idx) (k : Fin 4096) : S512x4096.Idx := fun a => match a with
  | ⟨0, _⟩ => ⟨(j 1).val, (j 1).isLt⟩
  | ⟨1, _⟩ => ⟨k.val, k.isLt⟩

/-- The left operand's free axis follows the output's row. -/
theorem lhs_axis0 (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
/-- The left operand's last axis is the contracted one. -/
theorem lhs_axis1 (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
/-- The right operand's free axis follows the output's column. -/
theorem rhs_axis0 (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
/-- The right operand's last axis is the contracted one too: both tiles are contracted along their rows' length. -/
theorem rhs_axis1 (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-- The stored tile at an index: row `j 0` of the activation tile against row `j 1` of the weight tile. -/
theorem tile_apply (x0 : FVec Ideal S1024x4096 .bf16) (x1 : FVec Ideal S512x4096 .bf16) (j : S1024x512.Idx) :
    k0_pay1 (F := Ideal) x0 x1 j = ∑ k : Fin 4096, x0 (actAt j k) * x1 (wgtAt j k) := by
  unfold k0_pay1
  simp only [shapeCast_self]
  show FloatOps.matmul dot_S1024x4096_S512x4096_S1024x512_1_1_0_0_n_n none x0 x1 (constant S1024x512 .f32 0x00000000#32) j = _
  rw [Ideal.matmul_constant_zero_apply, ← Equiv.sum_comp (ValueIdx.contrEquiv1 dot_S1024x4096_S512x4096_S1024x512_1_1_0_0_n_n 4096 rfl rfl).symm]
  refine Finset.sum_congr rfl fun k _ => ?_
  have hk := ValueIdx.contrEquiv1_symm_val dot_S1024x4096_S512x4096_S1024x512_1_1_0_0_n_n 4096 rfl rfl k
  have el : dot_S1024x4096_S512x4096_S1024x512_1_1_0_0_n_n.lhsIdx j ((ValueIdx.contrEquiv1 dot_S1024x4096_S512x4096_S1024x512_1_1_0_0_n_n 4096 rfl rfl).symm k) = actAt j k := funext fun a => Fin.ext (by
    match a with
    | ⟨0, _⟩ => exact lhs_axis0 _ _
    | ⟨1, _⟩ => exact (lhs_axis1 _ _).trans hk)
  have er : dot_S1024x4096_S512x4096_S1024x512_1_1_0_0_n_n.rhsIdx j ((ValueIdx.contrEquiv1 dot_S1024x4096_S512x4096_S1024x512_1_1_0_0_n_n 4096 rfl rfl).symm k) = wgtAt j k := funext fun a => Fin.ext (by
    match a with
    | ⟨0, _⟩ => exact rhs_axis0 _ _
    | ⟨1, _⟩ => exact (rhs_axis1 _ _).trans hk)
  rw [el, er]

end Cert.KernelIdeal.TileProduct

end
-- ==== Proof.WholeProduct.lean ====
/-
  From grid points to the whole product.

  The grid has 8 x 22 points. Point `t` with block coordinates `(p, q)` reads rows `1024 p ..` of the
  activations and rows `512 q ..` of the (row-padded) weights, each with the whole contraction length, and
  writes the 1024 x 512 tile of the output at block `(p, q)`. Since an output entry `[r, s]` depends only on
  row `r` of the activations and row `s` of the weights, every tile is the restriction of ONE function of
  the two arrays,
      rowsProd x w [r, s] = sum over k of x[r, k] * w[s, k],
  and the 176 tiles cover the 8192 x 11264 output: the output array after the run is `rowsProd` of the
  two operand arrays as the region finds them.
-/
import proofs.«134972_j4690104287252_1_alg».proof.Proof.Gen.KernelIdeal.Frame
import proofs.«134972_j4690104287252_1_alg».proof.Proof.TileProduct
import Idealize.ShloMosaic.Lib.Pipeline.Value
import Idealize.ShloMosaic.Lib.ValueIdx

noncomputable section

namespace Cert.KernelIdeal.WholeProduct

open Cert.KernelIdeal Cert.KernelIdeal.Gen Cert.KernelIdeal.TileProduct Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The entry of the activations that term `k` of output entry `i` reads: row `i 0`, column `k`. -/
abbrev xAt (i : S8192x11264.Idx) (k : Fin 4096) : S8192x4096.Idx := fun a => match a with
  | ⟨0, _⟩ => ⟨(i 0).val, (i 0).isLt⟩
  | ⟨1, _⟩ => ⟨k.val, k.isLt⟩
/-- The entry of the padded weights it reads: row `i 1`, column `k`. -/
abbrev wAt (i : S8192x11264.Idx) (k : Fin 4096) : S11264x4096.Idx := fun a => match a with
  | ⟨0, _⟩ => ⟨(i 1).val, (i 1).isLt⟩
  | ⟨1, _⟩ => ⟨k.val, k.isLt⟩

/-- Rows against rows: entry `[r, s]` is the sum over `k` of `x[r, k] * w[s, k]`. -/
def rowsProd (x : FVec Ideal S8192x4096 .bf16) (w : FVec Ideal S11264x4096 .bf16) : FVec Ideal S8192x11264 .f32 :=
  fun i => ∑ k : Fin 4096, x (xAt i k) * w (wAt i k)

/-- The two operand arrays as the region finds them, and a point's two input tiles, at their literal types. -/
abbrev xarr (c : Dev nD) : FVec Ideal S8192x4096 .bf16 := V m c main_v32
abbrev warr (c : Dev nD) : FVec Ideal S11264x4096 .bf16 := V m c main_v33
abbrev xblk (c : Dev nD) (t : Fin cfg0.N) : FVec Ideal S1024x4096 .bf16 := iblk m c 0 t
abbrev wblk (c : Dev nD) (t : Fin cfg0.N) : FVec Ideal S512x4096 .bf16 := iblk m c 1 t

theorem zeroOff : (![0, 0] : Fin 2 → Nat) = fun _ => 0 := funext fun a => by fin_cases a <;> rfl

/-- The index maps over the grid: the activations' row block is the output's row block, the weights' row block the
    output's column block, neither input is cut along the contraction, and the output's blocks stay in 8 x 22. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 21 :=
  (by decide +kernel : ∀ t : Fin grid0.N, _)

/-- Every output block is some point's. -/
theorem idx_onto : ∀ (q0 : Fin 8) (q1 : Fin 22), ∃ t : Fin cfg0.N, win0_2.index t = ![q0.val, q1.val] :=
  (by decide +kernel : ∀ (q0 : Fin 8) (q1 : Fin 22), ∃ t : Fin grid0.N, win0_2.index t = ![q0.val, q1.val])

/-- What point `t` writes back is its block of `rowsProd` of the two operand arrays. -/
theorem flushed_eq (c : Dev nD) (t : Fin cfg0.N) :
    (dats m 0 c).flushed 2 t = ((cfg0.win 2).blk t).view.read (Elt Ideal) (rowsProd (xarr m c) (warr m c)) := by
  show (cfg0.win 2).cut (grid0.coords t) ((dats m 0 c).after 2 t) = _
  rw [after0_2]
  unfold out0_2
  rw [View.canon_unit_zero zeroOff]
  simp only [View.ld_unit_zero (S := S1024x4096) zeroOff, View.ld_unit_zero (S := S512x4096) zeroOff]
  obtain ⟨e0, e1, e2, e3, -, -⟩ := idx_facts t
  funext j
  refine (tile_apply (xblk m c t) (wblk m c t) j).trans ?_
  show ∑ k : Fin 4096, xarr m c (((cfg0.win 0).blk t).view.emb (actAt j k)) * warr m c (((cfg0.win 1).blk t).view.emb (wgtAt j k))
    = ∑ k : Fin 4096, xarr m c (xAt (((cfg0.win 2).blk t).view.emb j) k) * warr m c (wAt (((cfg0.win 2).blk t).view.emb j) k)
  refine Finset.sum_congr rfl fun k _ => ?_
  have h0 : ((cfg0.win 0).blk t).view.emb (actAt j k) = xAt (((cfg0.win 2).blk t).view.emb j) k := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 4096 + 1 * k.val = k.val; omega
  have h1 : ((cfg0.win 1).blk t).view.emb (wgtAt j k) = wAt (((cfg0.win 2).blk t).view.emb j) k := by
    funext a; apply Fin.ext
    match a with
    | ⟨0, _⟩ => show win0_1.index t (0 : Fin 2) * 512 + 1 * (j 1).val = win0_2.index t (1 : Fin 2) * 512 + 1 * (j 1).val; omega
    | ⟨1, _⟩ => show win0_1.index t (1 : Fin 2) * 4096 + 1 * k.val = k.val; omega
  rw [h0, h1]

/-- An index of the output is in point `t`'s block iff each coordinate is in the block's range on its axis. -/
theorem mem_blk (t : Fin cfg0.N) (i : S8192x11264.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v34).slice (win0_2.rect t)).set ↔ _
  rw [View.set_slice_whole, Rect.mem_set_unit]
  exact Iff.rfl

/-- Every index of the output lies in the block of the point at (row / 1024, column / 512). -/
theorem covered (i : S8192x11264.Idx) :
    ∃ t : Fin cfg0.N, (cfg0.win 2).flush t = true ∧ i ∈ ((cfg0.win 2).blk t).view.set := by
  have hi0 : (i 0).val < 8192 := (i 0).isLt
  have hi1 : (i 1).val < 11264 := (i 1).isLt
  obtain ⟨t, ht⟩ := idx_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- The output array after the run is `rowsProd` of the two operand arrays as the region finds them. -/
theorem final (c : Dev nD) : (dats m 0 c).arrAt 2 cfg0.N = rowsProd (xarr m c) (warr m c) :=
  (dats m 0 c).arrAt_eq_of_cover 2 _ (fun t _ => flushed_eq m c t) covered

end Cert.KernelIdeal.WholeProduct

end
-- ==== Proof.HostSide.lean ====
/-
  The host operations around the region.

  Before the region the program dequantises the weights on the host: two codebook gathers (main and
  residual), their sum, a transpose and reshape to [11008, 4096], a per-row scale and bias, and a row gather by
  the inverse of the permutation. That matrix, `dequant`, gets 256 zero rows appended (11008 -> 11264, a multiple of
  the 512-row tile) and both operands are cast to bf16. After the region the first 11008 columns of the
  8192 x 11264 product are sliced out. Over the extended reals the cast is the identity.
-/
import proofs.«134972_j4690104287252_1_alg».proof.Proof.WholeProduct
import Idealize.ShloMosaic.Lib.StableHlo.Run

noncomputable section

namespace Cert.KernelIdeal.HostSide

open Cert.KernelIdeal Cert.KernelIdeal.Gen Cert.KernelIdeal.WholeProduct Idealize.ShloMosaic Idealize.ShloMosaic.TcCoe
open Idealize.SL.Sem Idealize.ShloMosaic.StableHlo

variable (m : (ℓ : Loc nD τ sig) → Buf (Elt Ideal) ℓ)

/-- The dequantised weight matrix [11008, 4096] as a function of the codebooks `x1`, `x2`, the row scale and bias `x3`,
    `x4`, the code indices `x5`, `x6` and the permutation `x7`: the host operations' composed term. -/
def dequant (x1 : FVec Ideal S1x8192x8 .f32) (x2 : FVec Ideal S1x256x8 .f32) (x3 x4 : FVec Ideal S1x11008 .f32)
    (x5 x6 : IVec S1x1376x4096 32) (x7 : IVec S11008 32) : FVec Ideal S11008x4096 .f32 :=
  (Host.gather gather_S11008x4096_S11008x1_S11008x4096_1_0_n_n_0_1_14096 (addf (mulf (shapeCast _ (transpose S1376x8x1x4096 [1, 3, 0, 2] (addf (Host.gather gather_S1x8192x8_S1x1376x4096x1_S1x1376x4096x8_3_1_0_0_1_3_118 x1 (broadcastInDim S1x1376x4096x1 ![0, 1, 2] bcast_S1x1376x4096_S1x1376x4096x1_0_1_2 (select (cmpi .slt x5 (broadcastInDim S1x1376x4096 ![] bcast_S_S1x1376x4096 (constantI S_ 32 0#32))) (addi x5 (broadcastInDim S1x1376x4096 ![] bcast_S_S1x1376x4096 (constantI S_ 32 8192#32))) x5))) (Host.gather gather_S1x256x8_S1x1376x4096x1_S1x1376x4096x8_3_1_0_0_1_3_118 x2 (broadcastInDim S1x1376x4096x1 ![0, 1, 2] bcast_S1x1376x4096_S1x1376x4096x1_0_1_2 (select (cmpi .slt x6 (broadcastInDim S1x1376x4096 ![] bcast_S_S1x1376x4096 (constantI S_ 32 0#32))) (addi x6 (broadcastInDim S1x1376x4096 ![] bcast_S_S1x1376x4096 (constantI S_ 32 256#32))) x6)))) transposes_S1x1376x4096x8_S1376x8x1x4096_1_3_0_2) shapeCasts_S1376x8x1x4096_S11008x4096) (broadcastInDim S11008x4096 ![0, 1] bcast_S11008x1_S11008x4096_0_1 (shapeCast _ x3 shapeCasts_S1x11008_S11008x1))) (broadcastInDim S11008x4096 ![0, 1] bcast_S11008x1_S11008x4096_0_1 (shapeCast _ x4 shapeCasts_S1x11008_S11008x1))) (broadcastInDim S11008x1 ![0] bcast_S11008_S11008x1_0 (select (cmpi .slt ((Host.sort2 S11008 0 comparator_i32_i32_d0 x7 (iotaInDim S11008 32 0)).2) (broadcastInDim S11008 ![] bcast_S_S11008 (constantI S_ 32 0#32))) (addi ((Host.sort2 S11008 0 comparator_i32_i32_d0 x7 (iotaInDim S11008 32 0)).2) (broadcastInDim S11008 ![] bcast_S_S11008 (constantI S_ 32 11008#32))) ((Host.sort2 S11008 0 comparator_i32_i32_d0 x7 (iotaInDim S11008 32 0)).2))))

/-- The kernel's weight operand: `dequant` with 256 rows of the padding value appended, cast to bf16. -/
def wOperand (x1 : FVec Ideal S1x8192x8 .f32) (x2 : FVec Ideal S1x256x8 .f32) (x3 x4 : FVec Ideal S1x11008 .f32)
    (x5 x6 : IVec S1x1376x4096 32) (x7 : IVec S11008 32) : FVec Ideal S11264x4096 .bf16 :=
  truncf .bf16 (pad S11264x4096 ![0, 0] ![256, 0] ![0, 0] (dequant x1 x2 x3 x4 x5 x6 x7)
    (sitofp (F := Ideal) .f32 (constantI S_ 32 0#32)) pads_S11008x4096_S11264x4096_02560_000 h_S_) bitsLt_bf16_f32

/-- The activation operand as the region finds it: the argument cast to bf16. -/
theorem xarr_eq (c : Dev nD) :
    xarr m c = truncf .bf16 (m ((c : Thread nD τ).loc main_arg0) : FVec Ideal S8192x4096 .f32) bitsLt_bf16_f32 := by
  show V m c main_v32 = _
  dsimp only [V, V0]
  simp only [hostOps0, hostOps0_1, hostOps0_2, hostOps0_3, hostOps0_4, List.flatten_cons, List.flatten_nil, List.append_nil, List.cons_append, List.nil_append]
  after_results_simp <;> rfl

/-- The weight operand as the region finds it. -/
theorem warr_eq (c : Dev nD) :
    warr m c = wOperand (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := by
  show V m c main_v33 = _
  unfold wOperand dequant
  dsimp only [V, V0]
  simp only [hostOps0, hostOps0_1, hostOps0_2, hostOps0_3, hostOps0_4, List.flatten_cons, List.flatten_nil, List.append_nil, List.cons_append, List.nil_append]
  after_results_simp <;> rfl

/-- The result buffer after the host operation that follows the region: the product's first 11008 columns. -/
theorem tail_eq (c : Dev nD) :
    Pipeline.afterTail₀ cfgs (dats m) 0 (V0 m) [hostOps1] c main_v35
      = extractStridedSlice S8192x11008 ![0, 0] (rowsProd (xarr m c) (warr m c)) slices_S8192x11264_S8192x11008_0_0 := by
  unfold Pipeline.afterTail₀
  show StableHlo.after hostOps1 _ (Proc.devRef .tc main_v35) = _
  after_results
  exact congrArg (fun a => extractStridedSlice S8192x11008 ![0, 0] a slices_S8192x11264_S8192x11008_0_0)
    ((Pipeline.withArrays_arr (cfgs 0).spec launch0.win.arr_inj c (V0 m c) (fun w => (dats m 0 c).arrAt w (cfgs 0).N) 2).trans (final m c))

/-- The kernel program's result, as a function of the launch memory: the first 11008 columns of `rowsProd` of the
    bf16-cast activations and the padded, bf16-cast dequantised weights. -/
def result (c : Dev nD) : FVec Ideal S8192x11008 .f32 :=
  extractStridedSlice S8192x11008 ![0, 0]
    (rowsProd (truncf .bf16 (m ((c : Thread nD τ).loc main_arg0) : FVec Ideal S8192x4096 .f32) bitsLt_bf16_f32)
      (wOperand (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))))
    slices_S8192x11264_S8192x11008_0_0

theorem tail_result (c : Dev nD) :
    Pipeline.afterTail₀ cfgs (dats m) 0 (V0 m) [hostOps1] c main_v35 = result m c := by
  rw [tail_eq, xarr_eq, warr_eq]
  rfl

variable (ρ : Dev nD → PrngReg)

/-- Every weakly fair execution of the kernel program terminates with the result buffer at `result` and the
    arguments unchanged: the generated frame run, with the output array read as the whole product and the slice
    after the region applied. -/
theorem run : θ_run defs (onTc (τ := τ) (main (F := Ideal))) ⟨m, fun _ => 0, ρ⟩ (fun r => ∀ c : Dev nD,
      r.2.mem ((c.tc : Thread nD τ).loc main_v35) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_v35 (Pipeline.mem_restRefs_of main_v35 (by decide) (by decide))).trans (tail_result m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.HostSide

end
-- ==== Proof.SameProduct.lean ====
/-
  The two programs compute one function.

  The reference dequantises the weights with the same host operations, transposes the [11008, 4096] matrix
  and multiplies the activations by it in one product contracting the activations' columns with the
  transpose's rows: entry `[r, s]` is the sum over `k` of `x[r, k] * W[s, k]`. The kernel's entry `[r, s]`, `s < 11008`,
  is the same sum with `W` read through the zero-row padding (rows below 11008 are `W`'s own) and both factors
  read through a change of float format, which over the extended reals changes nothing. The sums agree term by term,
  so no law of the extended reals beyond equality of the summands is used and finiteness of the inputs plays no part.
-/
import proofs.«134972_j4690104287252_1_alg».proof.Proof.HostSide
import proofs.«134972_j4690104287252_1_alg».proof.Proof.Gen.ReferenceIdeal.Read
import Idealize.ShloMosaic.Lib.KernelVsHost
import Idealize.ShloMosaic.Lib.Pipeline.Value

noncomputable section

namespace Cert.SameProduct

open Idealize.ShloMosaic Idealize.ShloMosaic.ValueIdx
open Cert.KernelIdeal.HostSide Cert.KernelIdeal.WholeProduct

/-- Both programs dequantise with the same chain of host operations: the kernel program's composed term is the
    reference's stage for the permuted weight matrix. -/
theorem dequant_eq (x1 : FVec Ideal Cert.KernelIdeal.S1x8192x8 .f32) (x2 : FVec Ideal Cert.KernelIdeal.S1x256x8 .f32) (x3 x4 : FVec Ideal Cert.KernelIdeal.S1x11008 .f32)
    (x5 x6 : IVec Cert.KernelIdeal.S1x1376x4096 32) (x7 : IVec Cert.KernelIdeal.S11008 32) :
    dequant x1 x2 x3 x4 x5 x6 x7 = Cert.ReferenceIdeal.Read.val_main_v30 (F := Ideal) x1 x2 x3 x4 x5 x6 x7 := rfl

/-- An index of the [8192, 11008] result, as an index of the [8192, 11264] padded product. -/
abbrev inPadded (i : Cert.KernelIdeal.S8192x11008.Idx) : Cert.KernelIdeal.S8192x11264.Idx := fun a => match a with
  | ⟨0, _⟩ => ⟨(i 0).val, (i 0).isLt⟩
  | ⟨1, _⟩ => ⟨(i 1).val, Nat.lt_of_lt_of_le (i 1).isLt (show (11008 : Nat) ≤ 11264 by decide)⟩

/-- The kernel program's result is the reference's product, as functions of the eight arguments. -/
theorem result_eq (x0 : FVec Ideal Cert.KernelIdeal.S8192x4096 .f32) (x1 : FVec Ideal Cert.KernelIdeal.S1x8192x8 .f32) (x2 : FVec Ideal Cert.KernelIdeal.S1x256x8 .f32) (x3 x4 : FVec Ideal Cert.KernelIdeal.S1x11008 .f32)
    (x5 x6 : IVec Cert.KernelIdeal.S1x1376x4096 32) (x7 : IVec Cert.KernelIdeal.S11008 32) :
    extractStridedSlice Cert.KernelIdeal.S8192x11008 ![0, 0]
      (rowsProd (truncf .bf16 x0 Cert.KernelIdeal.Gen.bitsLt_bf16_f32) (wOperand x1 x2 x3 x4 x5 x6 x7))
      Cert.KernelIdeal.Gen.slices_S8192x11264_S8192x11008_0_0
    = Cert.ReferenceIdeal.Read.val_main_v32 (F := Ideal) x0 x1 x2 x3 x4 x5 x6 x7 := by
  funext i
  refine (extractStridedSlice_apply ![0, 0] _ Cert.KernelIdeal.Gen.slices_S8192x11264_S8192x11008_0_0 i (inPadded i) (fun a => ?_)).trans ?_
  · match a with
    | ⟨0, _⟩ => show (i 0).val = 0 + (i 0).val; omega
    | ⟨1, _⟩ => show (i 1).val = 0 + (i 1).val; omega
  rw [Cert.ReferenceIdeal.Read.val_main_v32_apply]
  show ∑ k : Fin 4096, x0 (xAt (inPadded i) k) * wOperand x1 x2 x3 x4 x5 x6 x7 (wAt (inPadded i) k) = _
  refine Finset.sum_congr rfl fun k _ => ?_
  rw [Cert.ReferenceIdeal.Read.val_main_v31_apply, ← dequant_eq]
  have hx : xAt (inPadded i) k = Cert.ReferenceIdeal.Read.lidx_main_v32 i k := funext fun a => by
    match a with
    | ⟨0, _⟩ => rfl
    | ⟨1, _⟩ => rfl
  have hw : wOperand x1 x2 x3 x4 x5 x6 x7 (wAt (inPadded i) k)
      = dequant x1 x2 x3 x4 x5 x6 x7 (Cert.ReferenceIdeal.Read.idx_main_v31 (Cert.ReferenceIdeal.Read.ridx_main_v32 i k)) := by
    unfold wOperand
    show pad Cert.KernelIdeal.S11264x4096 ![0, 0] ![256, 0] ![0, 0] (dequant x1 x2 x3 x4 x5 x6 x7)
      (sitofp (F := Ideal) .f32 (constantI Cert.KernelIdeal.S_ 32 0#32)) Cert.KernelIdeal.Gen.pads_S11008x4096_S11264x4096_02560_000 Cert.KernelIdeal.Gen.h_S_ (wAt (inPadded i) k) = _
    exact pad_apply_of_inside ![0, 0] ![256, 0] ![0, 0] (dequant x1 x2 x3 x4 x5 x6 x7) _
      Cert.KernelIdeal.Gen.pads_S11008x4096_S11264x4096_02560_000 Cert.KernelIdeal.Gen.h_S_ (wAt (inPadded i) k)
      (Cert.ReferenceIdeal.Read.idx_main_v31 (Cert.ReferenceIdeal.Read.ridx_main_v32 i k)) (fun a => by
        match a with
        | ⟨0, _⟩ => show (i 1).val = 0 + (i 1).val * (0 + 1); omega
        | ⟨1, _⟩ => show k.val = 0 + k.val * (0 + 1); omega)
  rw [hx, hw]

end Cert.SameProduct

end
-- ==== Proof.lean ====
/-
  A vector-quantised linear layer: the dequantised weight matrix times the activations.

  Both programs rebuild the weight matrix `W` [11008, 4096] on the host with the same operations (codebook
  gathers, transpose and reshape, per-row scale and bias, un-permutation). The reference returns `x @ W.T`
  in one product. The kernel program appends 256 zero rows to `W`, casts both operands to bf16, computes the
  [8192, 11264] product tile by tile on an 8 x 22 grid (each tile the full contraction of 1024 activation rows against
  512 weight rows into a zero accumulator), and slices the first 11008 columns.

  Over the extended reals a format change is the identity and a product into a zero accumulator is a finite sum, so
  entry `[r, s]` of either result is the sum over `k` of `x[r, k] * W[s, k]`; the padded rows are never read by a kept
  column. The three frames are the generated ones (the reference's is its generated run with the result dropped),
  the idealisation rewrote nothing, and the value claim is the equality of the two sums term by term.
-/
import proofs.«134972_j4690104287252_1_alg».proof.Defs
import proofs.«134972_j4690104287252_1_alg».proof.Proof.Gen.Kernel
import proofs.«134972_j4690104287252_1_alg».proof.Proof.Gen.Kernel.Skeleton
import proofs.«134972_j4690104287252_1_alg».proof.Proof.Gen.Kernel.Launch
import proofs.«134972_j4690104287252_1_alg».proof.Proof.Gen.Kernel.Points
import proofs.«134972_j4690104287252_1_alg».proof.Proof.Gen.Kernel.Frame
import proofs.«134972_j4690104287252_1_alg».proof.Proof.Gen.KernelIdeal
import proofs.«134972_j4690104287252_1_alg».proof.Proof.Gen.KernelIdeal.Skeleton
import proofs.«134972_j4690104287252_1_alg».proof.Proof.Gen.KernelIdeal.Launch
import proofs.«134972_j4690104287252_1_alg».proof.Proof.Gen.KernelIdeal.Points
import proofs.«134972_j4690104287252_1_alg».proof.Proof.Gen.KernelIdeal.Frame
import proofs.«134972_j4690104287252_1_alg».proof.Proof.Gen.ReferenceIdeal
import proofs.«134972_j4690104287252_1_alg».proof.Proof.Gen.Pre_finite_inputs
import proofs.«134972_j4690104287252_1_alg».proof.Proof.Gen.ReferenceIdeal.Run
import proofs.«134972_j4690104287252_1_alg».proof.Proof.Gen.ReferenceIdeal.Read
import proofs.«134972_j4690104287252_1_alg».proof.Proof.HostSide
import proofs.«134972_j4690104287252_1_alg».proof.Proof.SameProduct
import Idealize.ShloMosaic.Adequacy
import Idealize.ShloMosaic.Init

noncomputable section

namespace Cert.Proof

open Idealize.ShloMosaic Idealize.SL.Sem

/-- The word-level kernel program terminates without a fault and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments both programs end with the same [8192, 11008] array: the kernel
    program's sliced tile-by-tile product and the reference's single product are one function of the arguments. -/
theorem algebraic : Cert.algebraic_KernelIdeal_ReferenceIdeal := by
  intro m ρ m' ρ' _ hagree
  refine ⟨fun c => Cert.KernelIdeal.HostSide.result m c, Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v32_eq, h0, h1, h2, h3, h4, h5, h6, h7]
  exact (Cert.SameProduct.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
